-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x1024 : Shape := ⟨3, ![16, 2048, 1024]⟩
abbrev S8 : Shape := ⟨1, ![8]⟩
abbrev S4096x8 : Shape := ⟨2, ![4096, 8]⟩
abbrev S4096 : Shape := ⟨1, ![4096]⟩
abbrev S1024x4096 : Shape := ⟨2, ![1024, 4096]⟩
abbrev S1024 : Shape := ⟨1, ![1024]⟩
abbrev S_ : Shape := ⟨0, ![]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S8 : S_.BroadcastsInDim S8 (![] : Fin 0 → Fin S8.rank)
  reducesTo_S8_S_d0 : S8.ReducesTo [0] S_
  bcast_S_S4096x8 : S_.BroadcastsInDim S4096x8 (![] : Fin 0 → Fin S4096x8.rank)
  reducesTo_S4096x8_S_d0_1 : S4096x8.ReducesTo [0, 1] S_
  bcast_S_S4096 : S_.BroadcastsInDim S4096 (![] : Fin 0 → Fin S4096.rank)
  reducesTo_S4096_S_d0 : S4096.ReducesTo [0] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x4096 .f32) (main_arg5 : FVec F S1024 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S1024x4096 .f32 := Host.absf main_arg4
  let main_cst_6 : FVec F S_ .f32 := constant S_ .f32 0x7F800000#32
  let main_v20 : FVec F S1024x4096 .f32 := broadcastInDim S1024x4096 ![] bcast_S_S1024x4096 main_cst_6
  let main_v21 : IVec S1024x4096 1 := cmpf .olt main_v19 main_v20
  let main_c_7 : IVec S_ 1 := constantI S_ 1 1#1
  let main_v22 : IVec S_ 1 := (fun x v => Host.reduce IntOp.andi x v reducesTo_S1024x4096_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S16x2048x1024 .f32) (main_arg1 : FVec F S8 .f32) (main_arg2 : FVec F S4096x8 .f32) (main_arg3 : FVec F S4096 .f32) (main_arg4 : FVec F S1024x4096 .f32) (main_arg5 : FVec F S1024 .f32) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  let main_v9 : FVec F S4096x8 .f32 := Host.absf main_arg2
  let main_cst_2 : FVec F S_ .f32 := constant S_ .f32 0x7F800000#32
  let main_v10 : FVec F S4096x8 .f32 := broadcastInDim S4096x8 ![] bcast_S_S4096x8 main_cst_2
  let main_v11 : IVec S4096x8 1 := cmpf .olt main_v9 main_v10
  let main_c_3 : IVec S_ 1 := constantI S_ 1 1#1
  let main_v12 : IVec S_ 1 := (fun x v => Host.reduce IntOp.andi x v reducesTo_S4096x8_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_v13 main_v16
-- ==== Kernel.lean ====
abbrev S16x2048x1024 : Shape := ⟨3, ![16, 2048, 1024]⟩
abbrev S8 : Shape := ⟨1, ![8]⟩
abbrev S4096x8 : Shape := ⟨2, ![4096, 8]⟩
abbrev S4096 : Shape := ⟨1, ![4096]⟩
abbrev S1024x4096 : Shape := ⟨2, ![1024, 4096]⟩
abbrev S1024 : Shape := ⟨1, ![1024]⟩
abbrev S32768x1024 : Shape := ⟨2, ![32768, 1024]⟩
abbrev S1x8 : Shape := ⟨2, ![1, 8]⟩
abbrev S1x4096 : Shape := ⟨2, ![1, 4096]⟩
abbrev S1x1024 : Shape := ⟨2, ![1, 1024]⟩
abbrev S256x1024 : Shape := ⟨2, ![256, 1024]⟩
abbrev S256x8 : Shape := ⟨2, ![256, 8]⟩
abbrev S256x4096 : Shape := ⟨2, ![256, 4096]⟩

abbrev nBuf : Space → Nat
  | .hbm => 15
  | .vmem => 9
  | .smem => 0
  | _ => 0

abbrev bufTy : (tb : Table) → Fin (tcTables nBuf tb) → BufTy
  | .hbm, ⟨0, _⟩ => ⟨S16x2048x1024, .f32⟩
  | .hbm, ⟨1, _⟩ => ⟨S8, .f32⟩
  | .hbm, ⟨2, _⟩ => ⟨S4096x8, .f32⟩
  | .hbm, ⟨3, _⟩ => ⟨S4096, .f32⟩
  | .hbm, ⟨4, _⟩ => ⟨S1024x4096, .f32⟩
  | .hbm, ⟨5, _⟩ => ⟨S1024, .f32⟩
  | .hbm, ⟨6, _⟩ => ⟨S32768x1024, .f32⟩
  | .hbm, ⟨7, _⟩ => ⟨S8, .f32⟩
  | .hbm, ⟨8, _⟩ => ⟨S1x8, .f32⟩
  | .hbm, ⟨9, _⟩ => ⟨S1x4096, .f32⟩
  | .hbm, ⟨10, _⟩ => ⟨S1x1024, .f32⟩
  | .hbm, ⟨11, _⟩ => ⟨S4096x8, .bf16⟩
  | .hbm, ⟨12, _⟩ => ⟨S1024x4096, .bf16⟩
  | .hbm, ⟨13, _⟩ => ⟨S32768x1024, .f32⟩
  | .hbm, ⟨14, _⟩ => ⟨S16x2048x1024, .f32⟩
  | .local _ .vmem, ⟨0, _⟩ => ⟨S256x1024, .f32⟩
  | .local _ .vmem, ⟨1, _⟩ => ⟨S256x1024, .f32⟩
  | .local _ .vmem, ⟨2, _⟩ => ⟨S1x8, .f32⟩
  | .local _ .vmem, ⟨3, _⟩ => ⟨S4096x8, .bf16⟩
  | .local _ .vmem, ⟨4, _⟩ => ⟨S1x4096, .f32⟩
  | .local _ .vmem, ⟨5, _⟩ => ⟨S1024x4096, .bf16⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x8 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S16x2048x1024_S32768x1024 : S16x2048x1024.ShapeCasts S32768x1024
  shapeCasts_S8_S1x8 : S8.ShapeCasts S1x8
  shapeCasts_S4096_S1x4096 : S4096.ShapeCasts S1x4096
  shapeCasts_S1024_S1x1024 : S1024.ShapeCasts S1x1024
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  slices_S256x1024_o0_0_S256x8 : S256x1024.Slices ![0, 0] S256x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S256x8 : S1x8.Broadcasts S256x8
  inb_S4096x8_S4096x8_0_0 : ∀ a, (![0, 0] : Fin 2 → Nat) a + S4096x8.size a ≤ S4096x8.size a
  h_S4096x8 : 0 < S4096x8.numel
  shapeCasts_S4096x8_S4096x8 : S4096x8.ShapeCasts S4096x8
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  shapeCasts_S32768x1024_S16x2048x1024 : S32768x1024.ShapeCasts S16x2048x1024
  dot_S256x8_S4096x8_S256x4096_1_1_0_0_n_n_wf : DotDims.WF S256x8 S4096x8 S256x4096 [1] [1] [0] [0] [] []
  dot_S256x4096_S1024x4096_S256x1024_1_1_0_0_n_n_wf : DotDims.WF S256x4096 S1024x4096 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S32768x1024.size a
  hwx0_0 : ∀ i : grid0.Coords, EltTy.bits .f32 = 32 ∨ (Rect.block (s := S32768x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8.size a ≤ S1x8.size a
  hwx0_1 : ∀ i : grid0.Coords, EltTy.bits .f32 = 32 ∨ (Rect.block (s := S1x8) S1x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x8.size a ≤ S4096x8.size a
  hwx0_2 : ∀ i : grid0.Coords, EltTy.bits .bf16 = 32 ∨ (Rect.block (s := S4096x8) S4096x8.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S32768x1024.size a
  hwx0_6 : ∀ i : grid0.Coords, EltTy.bits .f32 = 32 ∨ (Rect.block (s := S32768x1024) S256x1024.size (cc0_transform_6 i) (hinb0_6 i)).WholeWords (EltTy.packing .f32)

variable [Facts₀]

def dot_S256x8_S4096x8_S256x4096_1_1_0_0_n_n : DotDims S256x8 S4096x8 S256x4096 where
  lhsContracting := [1]
  rhsContracting := [1]
  lhsNonContracting := [0]
  rhsNonContracting := [0]
  lhsBatch := []
  rhsBatch := []
  wf := dot_S256x8_S4096x8_S256x4096_1_1_0_0_n_n_wf
def dot_S256x4096_S1024x4096_S256x1024_1_1_0_0_n_n : DotDims S256x4096 S1024x4096 S256x1024 where
  lhsContracting := [1]
  rhsContracting := [1]
  lhsNonContracting := [0]
  rhsNonContracting := [0]
  lhsBatch := []
  rhsBatch := []
  wf := dot_S256x4096_S1024x4096_S256x1024_1_1_0_0_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S4096x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x2048x1024 : Shape := ⟨3, ![16, 2048, 1024]⟩
abbrev S8 : Shape := ⟨1, ![8]⟩
abbrev S4096x8 : Shape := ⟨2, ![4096, 8]⟩
abbrev S4096 : Shape := ⟨1, ![4096]⟩
abbrev S1024x4096 : Shape := ⟨2, ![1024, 4096]⟩
abbrev S1024 : Shape := ⟨1, ![1024]⟩
abbrev S16x2048x8 : Shape := ⟨3, ![16, 2048, 8]⟩
abbrev S1x1x8 : Shape := ⟨3, ![1, 1, 8]⟩
abbrev S16x2048x4096 : Shape := ⟨3, ![16, 2048, 4096]⟩
abbrev S1x1x4096 : Shape := ⟨3, ![1, 1, 4096]⟩
abbrev S_ : Shape := ⟨0, ![]⟩
abbrev S1x1x1024 : Shape := ⟨3, ![1, 1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S8, .f32⟩
  | .hbm, ⟨2, _⟩ => ⟨S4096x8, .f32⟩
  | .hbm, ⟨3, _⟩ => ⟨S4096, .f32⟩
  | .hbm, ⟨4, _⟩ => ⟨S1024x4096, .f32⟩
  | .hbm, ⟨5, _⟩ => ⟨S1024, .f32⟩
  | .hbm, ⟨6, _⟩ => ⟨S16x2048x8, .f32⟩
  | .hbm, ⟨7, _⟩ => ⟨S16x2048x8, .f32⟩
  | .hbm, ⟨8, _⟩ => ⟨S8, .f32⟩
  | .hbm, ⟨9, _⟩ => ⟨S1x1x8, .f32⟩
  | .hbm, ⟨10, _⟩ => ⟨S16x2048x8, .f32⟩
  | .hbm, ⟨11, _⟩ => ⟨S16x2048x8, .f32⟩
  | .hbm, ⟨12, _⟩ => ⟨S16x2048x4096, .f32⟩
  | .hbm, ⟨13, _⟩ => ⟨S1x1x4096, .f32⟩
  | .hbm, ⟨14, _⟩ => ⟨S16x2048x4096, .f32⟩
  | .hbm, ⟨15, _⟩ => ⟨S16x2048x4096, .f32⟩
  | .hbm, ⟨16, _⟩ => ⟨S_, .f32⟩
  | .hbm, ⟨17, _⟩ => ⟨S16x2048x4096, .f32⟩
  | .hbm, ⟨18, _⟩ => ⟨S16x2048x4096, .f32⟩
  | .hbm, ⟨19, _⟩ => ⟨S16x2048x1024, .f32⟩
  | .hbm, ⟨20, _⟩ => ⟨S1x1x1024, .f32⟩
  | .hbm, ⟨21, _⟩ => ⟨S16x2048x1024, .f32⟩
  | .hbm, ⟨22, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_cst : Ref sig .tc := ⟨.hbm, 16, rfl⟩
abbrev main_call0_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  slices_S16x2048x1024_S16x2048x8_0_0_0 : S16x2048x1024.Slices ![0, 0, 0] S16x2048x8
  bcast_S8_S1x1x8_2 : S8.BroadcastsInDim S1x1x8 (![2] : Fin 1 → Fin S1x1x8.rank)
  bcast_S1x1x8_S16x2048x8_0_1_2 : S1x1x8.BroadcastsInDim S16x2048x8 (![0, 1, 2] : Fin 3 → Fin S16x2048x8.rank)
  bcast_S4096_S1x1x4096_2 : S4096.BroadcastsInDim S1x1x4096 (![2] : Fin 1 → Fin S1x1x4096.rank)
  bcast_S1x1x4096_S16x2048x4096_0_1_2 : S1x1x4096.BroadcastsInDim S16x2048x4096 (![0, 1, 2] : Fin 3 → Fin S16x2048x4096.rank)
  bcast_S_S16x2048x4096 : S_.BroadcastsInDim S16x2048x4096 (![] : Fin 0 → Fin S16x2048x4096.rank)
  bcast_S1024_S1x1x1024_2 : S1024.BroadcastsInDim S1x1x1024 (![2] : Fin 1 → Fin S1x1x1024.rank)
  bcast_S1x1x1024_S16x2048x1024_0_1_2 : S1x1x1024.BroadcastsInDim S16x2048x1024 (![0, 1, 2] : Fin 3 → Fin S16x2048x1024.rank)
  dot_S16x2048x8_S4096x8_S16x2048x4096_2_1_01_0_n_n_wf : DotDims.WF S16x2048x8 S4096x8 S16x2048x4096 [2] [1] [0, 1] [0] [] []
  dot_S16x2048x4096_S1024x4096_S16x2048x1024_2_1_01_0_n_n_wf : DotDims.WF S16x2048x4096 S1024x4096 S16x2048x1024 [2] [1] [0, 1] [0] [] []

variable [Facts₀]

def dot_S16x2048x8_S4096x8_S16x2048x4096_2_1_01_0_n_n : DotDims S16x2048x8 S4096x8 S16x2048x4096 where
  lhsContracting := [2]
  rhsContracting := [1]
  lhsNonContracting := [0, 1]
  rhsNonContracting := [0]
  lhsBatch := []
  rhsBatch := []
  wf := dot_S16x2048x8_S4096x8_S16x2048x4096_2_1_01_0_n_n_wf
def dot_S16x2048x4096_S1024x4096_S16x2048x1024_2_1_01_0_n_n : DotDims S16x2048x4096 S1024x4096 S16x2048x1024 where
  lhsContracting := [2]
  rhsContracting := [1]
  lhsNonContracting := [0, 1]
  rhsNonContracting := [0]
  lhsBatch := []
  rhsBatch := []
  wf := dot_S16x2048x4096_S1024x4096_S16x2048x1024_2_1_01_0_n_n_wf

class Facts : Prop extends Facts₀ where

variable [Facts]
-- ==== Proof.Spec.lean ====
/-
  The function both programs compute, stated once over coordinates.

  A token is one row of the embedding: 1024 numbers of which only the first 8 are read. Its 8 features
  are `cos (x_w) * c_w` (`c_w` the cosine of the w-th angle); a hidden unit `f` is
  `max (∑_w feature_w * W1[f, w] + b1[f]) 0`; output coordinate `e` is `∑_f hidden_f * W2[e, f] + b2[e]`.
  Everything is an extended real; sums are finite sums over `Fin 8` and `Fin 4096` in one fixed
  grouping, so no law of arithmetic beyond reading both programs at the same indices is needed.
-/
import Idealize.ShloMosaic.Lib.ValueIdx
import Idealize.ShloMosaic.PureOps.Ideal.Laws

noncomputable section

namespace Cert.Ffn

open Idealize.ShloMosaic Idealize.ShloMosaic.ValueIdx

/-- Feature `w` of a token sits at column `w` of its 1024-wide row. -/
abbrev feat (w : Fin 8) : Fin 1024 := ⟨w.val, Nat.lt_of_lt_of_le w.isLt (by decide)⟩

/-- One output coordinate of one token, from the token's 8 read entries `xr`, the 8 angle cosines `ct`,
    the first layer `W1`, `b1`, and the row `W2r` and entry `b2e` of the second layer that belong to the
    output coordinate. -/
def tokenOut (xr ct : Fin 8 → EReal) (W1 : Fin 4096 → Fin 8 → EReal) (b1 : Fin 4096 → EReal)
    (W2r : Fin 4096 → EReal) (b2e : EReal) : EReal :=
  (∑ f : Fin 4096, max ((∑ w : Fin 8, Ideal.cos (xr w) * ct w * W1 f w) + b1 f) (Ideal.ofBits .f32 0x00000000#32) * W2r f) + b2e

/-- `tokenOut` depends on its arguments only through their values. -/
theorem tokenOut_congr {xr xr' ct ct' : Fin 8 → EReal} {W1 W1' : Fin 4096 → Fin 8 → EReal}
    {b1 b1' W2r W2r' : Fin 4096 → EReal} {b2e b2e' : EReal}
    (h0 : ∀ w, xr w = xr' w) (h1 : ∀ w, ct w = ct' w) (h2 : ∀ f w, W1 f w = W1' f w)
    (h3 : ∀ f, b1 f = b1' f) (h4 : ∀ f, W2r f = W2r' f) (h5 : b2e = b2e') :
    tokenOut xr ct W1 b1 W2r b2e = tokenOut xr' ct' W1' b1' W2r' b2e' := by
  obtain rfl : xr = xr' := funext h0
  obtain rfl : ct = ct' := funext h1
  obtain rfl : W1 = W1' := funext fun f => funext (h2 f)
  obtain rfl : b1 = b1' := funext h3
  obtain rfl : W2r = W2r' := funext h4
  subst h5
  rfl

/-- The whole result over [batch 16, sequence 2048, embedding 1024]: entry (b, s, e) is output coordinate `e` of
    token (b, s). -/
def ffn (x : (⟨3, ![16, 2048, 1024]⟩ : Shape).Idx → EReal) (θ : (⟨1, ![8]⟩ : Shape).Idx → EReal)
    (W1 : (⟨2, ![4096, 8]⟩ : Shape).Idx → EReal) (b1 : (⟨1, ![4096]⟩ : Shape).Idx → EReal)
    (W2 : (⟨2, ![1024, 4096]⟩ : Shape).Idx → EReal) (b2 : (⟨1, ![1024]⟩ : Shape).Idx → EReal) :
    (⟨3, ![16, 2048, 1024]⟩ : Shape).Idx → EReal := fun i =>
  tokenOut (fun w => x (ix3 (i 0) (i 1) (feat w))) (fun w => Ideal.cos (θ (ix1 w))) (fun f w => W1 (ix2 f w))
    (fun f => b1 (ix1 f)) (fun f => W2 (ix2 (i 2) f)) (b2 (ix1 (i 2)))

/-- The same with the tokens laid out as the 32768 rows of one matrix and the small operands as one-row
    matrices: entry (r, e) is output coordinate `e` of the token in row `r`; `ct` already holds the cosines. -/
def ffnRows (X : (⟨2, ![32768, 1024]⟩ : Shape).Idx → EReal) (ct : (⟨2, ![1, 8]⟩ : Shape).Idx → EReal)
    (W1 : (⟨2, ![4096, 8]⟩ : Shape).Idx → EReal) (b1 : (⟨2, ![1, 4096]⟩ : Shape).Idx → EReal)
    (W2 : (⟨2, ![1024, 4096]⟩ : Shape).Idx → EReal) (b2 : (⟨2, ![1, 1024]⟩ : Shape).Idx → EReal) :
    (⟨2, ![32768, 1024]⟩ : Shape).Idx → EReal := fun j =>
  tokenOut (fun w => X (ix2 (j 0) (feat w))) (fun w => ct (ix2 (0 : Fin 1) w)) (fun f w => W1 (ix2 f w))
    (fun f => b1 (ix2 (0 : Fin 1) f)) (fun f => W2 (ix2 (j 1) f)) (b2 (ix2 (0 : Fin 1) (j 1)))

end Cert.Ffn

end
-- ==== Proof.Reference.lean ====
/-
  The reference's result is the specification `Cert.Ffn.ffn` of its six arguments.

  The reference slices the first 8 columns, multiplies their cosines by the broadcast cosines of the angles,
  contracts with `W1` over the 8 features, adds `b1`, takes the maximum with zero, contracts with `W2` over the
  4096 hidden units and adds `b2`. Read at an index (b, s, e), every operand index that comes out of the
  chain of slices, broadcasts and contractions is the coordinate triple or pair the specification names.
-/
import proofs.«165914_j65481071402794_1_alg».proof.Proof.Gen.ReferenceIdeal.Run
import proofs.«165914_j65481071402794_1_alg».proof.Proof.Gen.ReferenceIdeal.Read
import proofs.«165914_j65481071402794_1_alg».proof.Proof.Spec

noncomputable section

namespace Cert.RefSide

open Cert.ReferenceIdeal Cert.ReferenceIdeal.Gen Cert.ReferenceIdeal.Read
open Idealize.ShloMosaic Idealize.ShloMosaic.ValueIdx Cert.Ffn

/-- The entry of `x` behind feature `w` of hidden unit `k` of output index `i`: token (i 0, i 1), column `w`. -/
theorem idx_x (i : S16x2048x1024.Idx) (k : Fin 4096) (w : Fin 8) :
    idx_main_v0 (lidx_main_v6 (lidx_main_v11 i k) w) = ix3 (i 0) (i 1) (feat w) :=
  funext fun a => Fin.ext (by match a with | ⟨0, _⟩ => rfl | ⟨1, _⟩ => rfl | ⟨2, _⟩ => rfl)

/-- The angle behind feature `w`. -/
theorem idx_theta (i : S16x2048x1024.Idx) (k : Fin 4096) (w : Fin 8) :
    idx_main_v3 (idx_main_v4 (lidx_main_v6 (lidx_main_v11 i k) w)) = ix1 w :=
  funext fun a => Fin.ext (by match a with | ⟨0, _⟩ => rfl)

/-- The first-layer weight of hidden unit `k` and feature `w`. -/
theorem idx_w1 (i : S16x2048x1024.Idx) (k : Fin 4096) (w : Fin 8) :
    ridx_main_v6 (lidx_main_v11 i k) w = ix2 k w :=
  funext fun a => Fin.ext (by match a with | ⟨0, _⟩ => rfl | ⟨1, _⟩ => rfl)

/-- The first-layer bias of hidden unit `k`. -/
theorem idx_b1 (i : S16x2048x1024.Idx) (k : Fin 4096) :
    idx_main_v7 (idx_main_v8 (lidx_main_v11 i k)) = ix1 k :=
  funext fun a => Fin.ext (by match a with | ⟨0, _⟩ => rfl)

/-- The second-layer weight of output coordinate `i 2` and hidden unit `k`. -/
theorem idx_w2 (i : S16x2048x1024.Idx) (k : Fin 4096) : ridx_main_v11 i k = ix2 (i 2) k :=
  funext fun a => Fin.ext (by match a with | ⟨0, _⟩ => rfl | ⟨1, _⟩ => rfl)

/-- The second-layer bias of output coordinate `i 2`. -/
theorem idx_b2 (i : S16x2048x1024.Idx) : idx_main_v12 (idx_main_v13 i) = ix1 (i 2) :=
  funext fun a => Fin.ext (by match a with | ⟨0, _⟩ => rfl)

/-- The reference's last stage, at the extended reals, is the specification. -/
theorem ref_eq (x0 : (⟨S16x2048x1024, .f32⟩ : BufTy).Contents (Elt Ideal)) (x1 : (⟨S8, .f32⟩ : BufTy).Contents (Elt Ideal))
    (x2 : (⟨S4096x8, .f32⟩ : BufTy).Contents (Elt Ideal)) (x3 : (⟨S4096, .f32⟩ : BufTy).Contents (Elt Ideal))
    (x4 : (⟨S1024x4096, .f32⟩ : BufTy).Contents (Elt Ideal)) (x5 : (⟨S1024, .f32⟩ : BufTy).Contents (Elt Ideal)) :
    val_main_v14 (F := Ideal) x0 x1 x2 x3 x4 x5 = ffn x0 x1 x2 x3 x4 x5 := by
  funext i
  simp only [val_main_v14_apply, val_main_v11_apply, val_main_v13_apply, val_main_v12_apply, val_main_v10_apply,
    val_main_v9_apply, val_main_v6_apply, val_main_v8_apply, val_main_v7_apply, val_main_v5_apply, val_main_v1_apply,
    val_main_v0_apply, val_main_v4_apply, val_main_v3_apply, val_main_v2_apply, val_main_call0_v0_apply,
    val_main_call0_cst_apply, Ideal.addf_def, Ideal.mulf_def, Ideal.maximumf_def, Ideal.hostUnary_cos_def,
    Ideal.ofBits_def, idx_x, idx_theta, idx_w1, idx_b1, idx_w2, idx_b2]
  rfl

end Cert.RefSide

end
-- ==== Proof.Payload.lean ====
/-
  What one grid step stores, read at an entry.

  A step holds a block of 256 tokens (256 x 1024), the one-row matrix of angle cosines, both weight matrices and
  both one-row biases, and stores one 256 x 1024 block. Entry (p, q) of the stored block is output coordinate `q`
  of token `p` of the block: each of the two products on the matrix unit, into a zero accumulator, is at an
  entry the plain sum over the shared axis of the operands' products; the slice keeps columns 0..7; a one-row
  operand broadcast down the rows is read at row 0; the narrowing to bf16 is the identity on extended reals.
-/
import proofs.«165914_j65481071402794_1_alg».proof.Proof.Gen.KernelIdeal.Skeleton
import proofs.«165914_j65481071402794_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen
open Idealize.ShloMosaic Idealize.ShloMosaic.ValueIdx Cert.Ffn

/-! ## The two products at an entry

For a product of an [a, k] matrix with a [b, k] matrix over their shared second axis, the left operand is read at
(row, k) and the right at (column, k). -/

theorem lhs1_0 (i : S256x4096.Idx) (q : dot_S256x8_S4096x8_S256x4096_1_1_0_0_n_n.contr.Idx) :
    (dot_S256x8_S4096x8_S256x4096_1_1_0_0_n_n.lhsIdx i q 0).val = (i 0).val := by
  unfold DotDims.lhsIdx
  rw [dif_neg (show ¬(0 : Fin S256x8.rank) ∈ dot_S256x8_S4096x8_S256x4096_1_1_0_0_n_n.lhsBatch by decide), dif_pos (show (0 : Fin S256x8.rank) ∈ dot_S256x8_S4096x8_S256x4096_1_1_0_0_n_n.lhsNonContracting by decide)]
  rfl
theorem lhs1_1 (i : S256x4096.Idx) (q : dot_S256x8_S4096x8_S256x4096_1_1_0_0_n_n.contr.Idx) :
    (dot_S256x8_S4096x8_S256x4096_1_1_0_0_n_n.lhsIdx i q 1).val = (q ⟨0, by decide⟩).val :=
  dot_S256x8_S4096x8_S256x4096_1_1_0_0_n_n.lhsIdx_val_of_single rfl i q
theorem rhs1_0 (i : S256x4096.Idx) (q : dot_S256x8_S4096x8_S256x4096_1_1_0_0_n_n.contr.Idx) :
    (dot_S256x8_S4096x8_S256x4096_1_1_0_0_n_n.rhsIdx i q 0).val = (i 1).val := by
  unfold DotDims.rhsIdx
  rw [dif_neg (show ¬(0 : Fin S4096x8.rank) ∈ dot_S256x8_S4096x8_S256x4096_1_1_0_0_n_n.rhsBatch by decide), dif_pos (show (0 : Fin S4096x8.rank) ∈ dot_S256x8_S4096x8_S256x4096_1_1_0_0_n_n.rhsNonContracting by decide)]
  rfl
theorem rhs1_1 (i : S256x4096.Idx) (q : dot_S256x8_S4096x8_S256x4096_1_1_0_0_n_n.contr.Idx) :
    (dot_S256x8_S4096x8_S256x4096_1_1_0_0_n_n.rhsIdx i q 1).val = (q ⟨0, by decide⟩).val :=
  dot_S256x8_S4096x8_S256x4096_1_1_0_0_n_n.rhsIdx_val_of_single rfl i q

/-- Features against the first layer: entry (token p, hidden unit c) is the sum over the 8 features. -/
theorem mm1_apply (l : FVec Ideal S256x8 .bf16) (r : FVec Ideal S4096x8 .bf16) (p : Fin 256) (c : Fin 4096) :
    matmul dot_S256x8_S4096x8_S256x4096_1_1_0_0_n_n none l r (constant S256x4096 .f32 0x00000000#32) (ix2 p c) = ∑ k : Fin 8, l (ix2 p k) * r (ix2 c k) := by
  simp only [matmul]
  rw [Ideal.matmul_constant_zero_apply, ← Equiv.sum_comp (contrEquiv1 dot_S256x8_S4096x8_S256x4096_1_1_0_0_n_n 8 rfl rfl).symm]
  refine Finset.sum_congr rfl fun k _ => ?_
  have hk := contrEquiv1_symm_val dot_S256x8_S4096x8_S256x4096_1_1_0_0_n_n 8 rfl rfl k
  have el : dot_S256x8_S4096x8_S256x4096_1_1_0_0_n_n.lhsIdx (ix2 p c) ((contrEquiv1 dot_S256x8_S4096x8_S256x4096_1_1_0_0_n_n 8 rfl rfl).symm k) = ix2 p k := funext fun a => Fin.ext (by
    match a with
    | ⟨0, _⟩ => exact lhs1_0 _ _
    | ⟨1, _⟩ => exact (lhs1_1 _ _).trans hk)
  have er : dot_S256x8_S4096x8_S256x4096_1_1_0_0_n_n.rhsIdx (ix2 p c) ((contrEquiv1 dot_S256x8_S4096x8_S256x4096_1_1_0_0_n_n 8 rfl rfl).symm k) = ix2 c k := funext fun a => Fin.ext (by
    match a with
    | ⟨0, _⟩ => exact rhs1_0 _ _
    | ⟨1, _⟩ => exact (rhs1_1 _ _).trans hk)
  rw [el, er]

theorem lhs2_0 (i : S256x1024.Idx) (q : dot_S256x4096_S1024x4096_S256x1024_1_1_0_0_n_n.contr.Idx) :
    (dot_S256x4096_S1024x4096_S256x1024_1_1_0_0_n_n.lhsIdx i q 0).val = (i 0).val := by
  unfold DotDims.lhsIdx
  rw [dif_neg (show ¬(0 : Fin S256x4096.rank) ∈ dot_S256x4096_S1024x4096_S256x1024_1_1_0_0_n_n.lhsBatch by decide), dif_pos (show (0 : Fin S256x4096.rank) ∈ dot_S256x4096_S1024x4096_S256x1024_1_1_0_0_n_n.lhsNonContracting by decide)]
  rfl
theorem lhs2_1 (i : S256x1024.Idx) (q : dot_S256x4096_S1024x4096_S256x1024_1_1_0_0_n_n.contr.Idx) :
    (dot_S256x4096_S1024x4096_S256x1024_1_1_0_0_n_n.lhsIdx i q 1).val = (q ⟨0, by decide⟩).val :=
  dot_S256x4096_S1024x4096_S256x1024_1_1_0_0_n_n.lhsIdx_val_of_single rfl i q
theorem rhs2_0 (i : S256x1024.Idx) (q : dot_S256x4096_S1024x4096_S256x1024_1_1_0_0_n_n.contr.Idx) :
    (dot_S256x4096_S1024x4096_S256x1024_1_1_0_0_n_n.rhsIdx i q 0).val = (i 1).val := by
  unfold DotDims.rhsIdx
  rw [dif_neg (show ¬(0 : Fin S1024x4096.rank) ∈ dot_S256x4096_S1024x4096_S256x1024_1_1_0_0_n_n.rhsBatch by decide), dif_pos (show (0 : Fin S1024x4096.rank) ∈ dot_S256x4096_S1024x4096_S256x1024_1_1_0_0_n_n.rhsNonContracting by decide)]
  rfl
theorem rhs2_1 (i : S256x1024.Idx) (q : dot_S256x4096_S1024x4096_S256x1024_1_1_0_0_n_n.contr.Idx) :
    (dot_S256x4096_S1024x4096_S256x1024_1_1_0_0_n_n.rhsIdx i q 1).val = (q ⟨0, by decide⟩).val :=
  dot_S256x4096_S1024x4096_S256x1024_1_1_0_0_n_n.rhsIdx_val_of_single rfl i q

/-- Hidden units against the second layer: entry (token p, output coordinate c) is the sum over the 4096 hidden units. -/
theorem mm2_apply (l : FVec Ideal S256x4096 .bf16) (r : FVec Ideal S1024x4096 .bf16) (p : Fin 256) (c : Fin 1024) :
    matmul dot_S256x4096_S1024x4096_S256x1024_1_1_0_0_n_n none l r (constant S256x1024 .f32 0x00000000#32) (ix2 p c) = ∑ k : Fin 4096, l (ix2 p k) * r (ix2 c k) := by
  simp only [matmul]
  rw [Ideal.matmul_constant_zero_apply, ← Equiv.sum_comp (contrEquiv1 dot_S256x4096_S1024x4096_S256x1024_1_1_0_0_n_n 4096 rfl rfl).symm]
  refine Finset.sum_congr rfl fun k _ => ?_
  have hk := contrEquiv1_symm_val dot_S256x4096_S1024x4096_S256x1024_1_1_0_0_n_n 4096 rfl rfl k
  have el : dot_S256x4096_S1024x4096_S256x1024_1_1_0_0_n_n.lhsIdx (ix2 p c) ((contrEquiv1 dot_S256x4096_S1024x4096_S256x1024_1_1_0_0_n_n 4096 rfl rfl).symm k) = ix2 p k := funext fun a => Fin.ext (by
    match a with
    | ⟨0, _⟩ => exact lhs2_0 _ _
    | ⟨1, _⟩ => exact (lhs2_1 _ _).trans hk)
  have er : dot_S256x4096_S1024x4096_S256x1024_1_1_0_0_n_n.rhsIdx (ix2 p c) ((contrEquiv1 dot_S256x4096_S1024x4096_S256x1024_1_1_0_0_n_n 4096 rfl rfl).symm k) = ix2 c k := funext fun a => Fin.ext (by
    match a with
    | ⟨0, _⟩ => exact rhs2_0 _ _
    | ⟨1, _⟩ => exact (rhs2_1 _ _).trans hk)
  rw [el, er]

/-! ## The pieces that are not pointwise -/

/-- The slice of the first 8 columns of a block, at (p, w), is the block at (p, column w). -/
theorem slice_feat (X : FVec Ideal S256x1024 .f32) (h : S256x1024.Slices ![0, 0] S256x8) (p : Fin 256) (w : Fin 8) :
    extractStridedSlice S256x8 ![0, 0] X h (ix2 p w) = X (ix2 p (feat w)) :=
  slice2_axis1_apply 0 X h p w (feat w) (Nat.zero_add _).symm

/-- The cosine of a vector, at an entry. -/
theorem cos_at {s : Shape} {φ : FTy} (x : FVec Ideal s φ) (i : s.Idx) : cos x i = Ideal.cos (x i) := rfl

/-- A scalar constant at the extended reals is the value of its word. -/
theorem scalar_word (b : BitVec 32) : Scalar.ofBits (F := Ideal) .f32 b = Ideal.ofBits .f32 b := rfl

/-! ## The stored block at an entry -/

/-- Entry (p, q) of what a step stores is output coordinate `q` of the block's token `p`. -/
theorem pay_apply (x0 : Vec Ideal S256x1024 .f32) (x1 : Vec Ideal S1x8 .f32) (x2 : Vec Ideal S4096x8 .bf16)
    (x3 : Vec Ideal S1x4096 .f32) (x4 : Vec Ideal S1024x4096 .bf16) (x5 : Vec Ideal S1x1024 .f32)
    (p : Fin 256) (q : Fin 1024) :
    k0_pay1 (F := Ideal) x0 x1 x2 x3 x4 x5 (ix2 p q)
      = tokenOut (fun w => x0 (ix2 p (feat w))) (fun w => x1 (ix2 (0 : Fin 1) w)) (fun f w => x2 (ix2 f w))
          (fun f => x3 (ix2 (0 : Fin 1) f)) (fun f => x4 (ix2 q f)) (x5 (ix2 (0 : Fin 1) q)) := by
  unfold k0_pay1 tokenOut
  simp only [shapeCast_self, addf_apply, mm2_apply, mm1_apply, broadcastTo_1b_ab_apply, truncf_apply, maximumf_apply,
    mulf_apply, broadcast_apply, cos_at, slice_feat, scalar_word]

end Cert.KernelIdeal.Payload

end
-- ==== Proof.Rows.lean ====
/-
  The output matrix after the region.

  The region runs 128 steps; step `t` reads rows 256 t .. 256 t + 255 of the token matrix (all 1024 columns) and the
  whole of every other operand, and writes rows 256 t .. 256 t + 255 of the output matrix. What it writes is, entry
  by entry, `Cert.Ffn.ffnRows` of the operands as the region finds them, read at the entry's own row and column:
  a block entry (p, q) sits at row 256 t + p, column q, and the token block's entry (p, w) at row 256 t + p, column
  w. The 128 row blocks cover the output matrix (row r lies in block r / 256), so the whole matrix ends at
  `ffnRows`.
-/
import proofs.«165914_j65481071402794_1_alg».proof.Proof.Gen.KernelIdeal.Frame
import proofs.«165914_j65481071402794_1_alg».proof.Proof.Payload
import proofs.«165914_j65481071402794_1_alg».proof.Proof.Spec
import Idealize.ShloMosaic.Lib.Pipeline.Value
import Idealize.ShloMosaic.Lib.ValueIdx

set_option maxRecDepth 16384

noncomputable section

namespace Cert.KernelIdeal.Rows

open Cert.KernelIdeal Cert.KernelIdeal.Gen Cert.KernelIdeal.Payload
open Idealize.ShloMosaic Idealize.ShloMosaic.TcCoe Idealize.ShloMosaic.ValueIdx Idealize.SL.Sem Cert.Ffn
open Idealize.ShloMosaic.Pipeline (Dat)

variable (m : (ℓ : Loc nD τ sig) → Buf (Elt Ideal) ℓ) (ρ : Dev nD → PrngReg)

/-- The offsets of a whole-buffer access are all zero. -/
theorem zeros2 : (![0, 0] : Fin 2 → Nat) = fun _ => 0 := funext fun a => by fin_cases a <;> rfl

/-- The output matrix as one function of the six operand arrays as the region finds them. -/
abbrev rowsOut (c : Dev nD) : S32768x1024.Idx → EReal :=
  ffnRows (V m c main_v0) (V m c main_v2) (V m c main_v5) (V m c main_v3) (V m c main_v6) (V m c main_v4)

/-- Block indices over the grid: the token window and the output window sit at row block `t`, column block 0; every
    other window at block (0, 0). -/
theorem idx_facts : ∀ t : Fin cfg0.N,
    win0_0.index t (0 : Fin 2) = win0_6.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (1 : Fin 2) = 0 :=
  (by decide +kernel : ∀ t : Fin grid0.N, _)

/-- Every row block is some step's. -/
theorem idx_onto : ∀ q0 : Fin 128, ∃ t : Fin cfg0.N, win0_6.index t = ![q0.val, 0] :=
  (by decide +kernel : ∀ q0 : Fin 128, ∃ t : Fin grid0.N, win0_6.index t = ![q0.val, 0])

/-- What step `t` writes back is block `t` of `rowsOut`. -/
theorem flushed_eq (c : Dev nD) (t : Fin cfg0.N) :
    (dats m 0 c).flushed 6 t = ((cfg0.win 6).blk t).view.read (Elt Ideal) (rowsOut m c) := by
  show (cfg0.win 6).cut (grid0.coords t) ((dats m 0 c).after 6 t) = _
  rw [after0_6]
  unfold out0_6
  rw [View.canon_unit_zero zeros2]
  simp only [View.ld_unit_zero (S := S256x1024) zeros2, View.ld_unit_zero (S := S1x8) zeros2,
    View.ld_unit_zero (S := S4096x8) zeros2, View.ld_unit_zero (S := S1x4096) zeros2,
    View.ld_unit_zero (S := S1024x4096) zeros2, View.ld_unit_zero (S := S1x1024) zeros2]
  obtain ⟨e00, e01, e10, e11, e20, e21, e30, e31, e40, e41, e50, e51, e61⟩ := idx_facts t
  show (k0_pay1 (F := Ideal) (iblk m c 0 t) (iblk m c 1 t) (iblk m c 2 t) (iblk m c 3 t) (iblk m c 4 t) (iblk m c 5 t) : S256x1024.Idx → EReal)
      = fun y : S256x1024.Idx => rowsOut m c (((cfg0.win 6).blk t).view.emb y)
  funext j
  obtain ⟨p, q, rfl⟩ : ∃ (p : Fin 256) (q : Fin 1024), j = ix2 p q := ⟨j 0, j 1, eq_ix2 j⟩
  refine (pay_apply (iblk m c 0 t) (iblk m c 1 t) (iblk m c 2 t) (iblk m c 3 t) (iblk m c 4 t) (iblk m c 5 t) p q).trans ?_
  refine tokenOut_congr (fun w => ?_) (fun w => ?_) (fun f w => ?_) (fun f => ?_) (fun f => ?_) ?_
  · show V m c main_v0 (((cfg0.win 0).blk t).view.emb (ix2 p (feat w))) = V m c main_v0 (ix2 ((((cfg0.win 6).blk t).view.emb (ix2 p q)) 0) (feat w))
    refine congrArg (V m c main_v0) (funext fun a => Fin.ext ?_)
    match a with
    | ⟨0, _⟩ => show win0_0.index t (0 : Fin 2) * 256 + 1 * p.val = win0_6.index t (0 : Fin 2) * 256 + 1 * p.val; omega
    | ⟨1, _⟩ => show win0_0.index t (1 : Fin 2) * 1024 + 1 * (feat w).val = (feat w).val; omega
  · show V m c main_v2 (((cfg0.win 1).blk t).view.emb (ix2 (0 : Fin 1) w)) = V m c main_v2 (ix2 (0 : Fin 1) w)
    refine congrArg (V m c main_v2) (funext fun a => Fin.ext ?_)
    match a with
    | ⟨0, _⟩ => show win0_1.index t (0 : Fin 2) * 1 + 1 * 0 = 0; omega
    | ⟨1, _⟩ => show win0_1.index t (1 : Fin 2) * 8 + 1 * w.val = w.val; omega
  · show V m c main_v5 (((cfg0.win 2).blk t).view.emb (ix2 f w)) = V m c main_v5 (ix2 f w)
    refine congrArg (V m c main_v5) (funext fun a => Fin.ext ?_)
    match a with
    | ⟨0, _⟩ => show win0_2.index t (0 : Fin 2) * 4096 + 1 * f.val = f.val; omega
    | ⟨1, _⟩ => show win0_2.index t (1 : Fin 2) * 8 + 1 * w.val = w.val; omega
  · show V m c main_v3 (((cfg0.win 3).blk t).view.emb (ix2 (0 : Fin 1) f)) = V m c main_v3 (ix2 (0 : Fin 1) f)
    refine congrArg (V m c main_v3) (funext fun a => Fin.ext ?_)
    match a with
    | ⟨0, _⟩ => show win0_3.index t (0 : Fin 2) * 1 + 1 * 0 = 0; omega
    | ⟨1, _⟩ => show win0_3.index t (1 : Fin 2) * 4096 + 1 * f.val = f.val; omega
  · show V m c main_v6 (((cfg0.win 4).blk t).view.emb (ix2 q f)) = V m c main_v6 (ix2 ((((cfg0.win 6).blk t).view.emb (ix2 p q)) 1) f)
    refine congrArg (V m c main_v6) (funext fun a => Fin.ext ?_)
    match a with
    | ⟨0, _⟩ => show win0_4.index t (0 : Fin 2) * 1024 + 1 * q.val = win0_6.index t (1 : Fin 2) * 1024 + 1 * q.val; omega
    | ⟨1, _⟩ => show win0_4.index t (1 : Fin 2) * 4096 + 1 * f.val = f.val; omega
  · show V m c main_v4 (((cfg0.win 5).blk t).view.emb (ix2 (0 : Fin 1) q)) = V m c main_v4 (ix2 (0 : Fin 1) ((((cfg0.win 6).blk t).view.emb (ix2 p q)) 1))
    refine congrArg (V m c main_v4) (funext fun a => Fin.ext ?_)
    match a with
    | ⟨0, _⟩ => show win0_5.index t (0 : Fin 2) * 1 + 1 * 0 = 0; omega
    | ⟨1, _⟩ => show win0_5.index t (1 : Fin 2) * 1024 + 1 * q.val = win0_6.index t (1 : Fin 2) * 1024 + 1 * q.val; omega

/-- An entry of the output matrix is in step `t`'s block iff each coordinate is in the block's range on its axis. -/
theorem mem_blk (t : Fin cfg0.N) (i : S32768x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v7).slice (win0_6.rect t)).set ↔ _
  rw [View.set_slice_whole, Rect.mem_set_unit]
  exact Iff.rfl

/-- Every entry of the output matrix is in some step's block: row `r` in block `r / 256`. -/
theorem cover (i : S32768x1024.Idx) :
    ∃ t : Fin cfg0.N, (cfg0.win 6).flush t = true ∧ i ∈ ((cfg0.win 6).blk t).view.set := by
  have hi0 : (i 0).val < 32768 := (i 0).isLt
  have hi1 : (i 1).val < 1024 := (i 1).isLt
  obtain ⟨t, ht⟩ := idx_onto ⟨(i 0).val / 256, by omega⟩
  have q0 : win0_6.index t (0 : Fin 2) = (i 0).val / 256 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 1024 ≤ (i 1).val ∧ (i 1).val < win0_6.index t (1 : Fin 2) * 1024 + 1024; omega

/-- The output matrix after the region is `rowsOut`. -/
theorem final (c : Dev nD) : (dats m 0 c).arrAt 6 cfg0.N = rowsOut m c :=
  (dats m 0 c).arrAt_eq_of_cover 6 (rowsOut m c) (fun t _ => flushed_eq m c t) (cover)

end Cert.KernelIdeal.Rows

end
-- ==== Proof.Result.lean ====
/-
  The kernel program's result is the specification `Cert.Ffn.ffn` of its six arguments.

  Before the region the host lays the tokens out as the 32768 rows of one matrix (a reshape: token (b, s) is row
  2048 b + s), takes the cosines of the angles and writes them, the two biases, as one-row matrices, and narrows
  the two weight matrices to bf16, which on extended reals changes nothing. After the region it reshapes the
  32768 x 1024 output matrix back to [16, 2048, 1024]. Row by row the output matrix is `ffnRows` of those operands
  (Rows.lean), so entry (b, s, e) of the result is output coordinate `e` of token (b, s): `ffn`.
-/
import proofs.«165914_j65481071402794_1_alg».proof.Proof.Rows
import Idealize.ShloMosaic.Lib.ValueLayout
import Idealize.ShloMosaic.Lib.StableHlo.Run

set_option maxRecDepth 16384

noncomputable section

namespace Cert.KernelIdeal.Result

open Cert.KernelIdeal Cert.KernelIdeal.Gen Cert.KernelIdeal.Rows
open Idealize.ShloMosaic Idealize.ShloMosaic.TcCoe Idealize.ShloMosaic.ValueIdx Idealize.SL.Sem Cert.Ffn
open Idealize.ShloMosaic.StableHlo

variable (m : (ℓ : Loc nD τ sig) → Buf (Elt Ideal) ℓ) (ρ : Dev nD → PrngReg)

/-! ## The operands as the region finds them -/

/-- The token matrix: the argument reshaped to 32768 rows. -/
theorem tokens_eq (c : Dev nD) : (V m c main_v0 : S32768x1024.Idx → EReal)
    = shapeCast S32768x1024 (m ((c : Thread nD τ).loc main_arg0)) shapeCasts_S16x2048x1024_S32768x1024 := by
  show StableHlo.after hostOps0 (fun b => m (c, b)) (Proc.devRef .tc main_v0) = _
  after_results
  rfl

/-- The angle cosines as a one-row matrix. -/
theorem cosines_eq (c : Dev nD) : (V m c main_v2 : S1x8.Idx → EReal)
    = (shapeCast S1x8 (Host.cos (F := Ideal) (s := S8) (φ := .f32) (m ((c : Thread nD τ).loc main_arg1))) shapeCasts_S8_S1x8 : S1x8.Idx → EReal) := by
  show StableHlo.after hostOps0 (fun b => m (c, b)) (Proc.devRef .tc main_v2) = _
  after_results
  rfl

/-- The first bias as a one-row matrix. -/
theorem bias1_eq (c : Dev nD) : (V m c main_v3 : S1x4096.Idx → EReal)
    = shapeCast S1x4096 (m ((c : Thread nD τ).loc main_arg3)) shapeCasts_S4096_S1x4096 := by
  show StableHlo.after hostOps0 (fun b => m (c, b)) (Proc.devRef .tc main_v3) = _
  after_results
  rfl

/-- The second bias as a one-row matrix. -/
theorem bias2_eq (c : Dev nD) : (V m c main_v4 : S1x1024.Idx → EReal)
    = shapeCast S1x1024 (m ((c : Thread nD τ).loc main_arg5)) shapeCasts_S1024_S1x1024 := by
  show StableHlo.after hostOps0 (fun b => m (c, b)) (Proc.devRef .tc main_v4) = _
  after_results
  rfl

/-- The first weight matrix, narrowed: on extended reals, itself. -/
theorem weights1_eq (c : Dev nD) : (V m c main_v5 : S4096x8.Idx → EReal) = (m ((c : Thread nD τ).loc main_arg2)) := by
  show StableHlo.after hostOps0 (fun b => m (c, b)) (Proc.devRef .tc main_v5) = _
  after_results
  rfl

/-- The second weight matrix, narrowed: on extended reals, itself. -/
theorem weights2_eq (c : Dev nD) : (V m c main_v6 : S1024x4096.Idx → EReal) = (m ((c : Thread nD τ).loc main_arg4)) := by
  show StableHlo.after hostOps0 (fun b => m (c, b)) (Proc.devRef .tc main_v6) = _
  after_results
  rfl

/-! ## Reading the reshapes at an entry -/

/-- Row 2048 b + s of the token matrix is token (b, s). -/
theorem tokens_apply (X : S16x2048x1024.Idx → EReal) (b : Fin 16) (s : Fin 2048) (e : Fin 1024)
    (r : Fin 32768) (hr : r.val = b.val * 2048 + s.val) :
    shapeCast S32768x1024 X shapeCasts_S16x2048x1024_S32768x1024 (ix2 r e) = X (ix3 b s e) :=
  shapeCast_apply X _ (ix2 r e) (ix3 b s e) (by
    rw [Shape.rowMajor_val_two, Shape.rowMajor_val_three]
    show (b.val * 2048 + s.val) * 1024 + e.val = r.val * 1024 + e.val
    rw [hr])

/-- Entry (b, s, e) of the output matrix reshaped back is its entry (2048 b + s, e). -/
theorem untokens_apply (Y : S32768x1024.Idx → EReal) (b : Fin 16) (s : Fin 2048) (e : Fin 1024)
    (r : Fin 32768) (hr : r.val = b.val * 2048 + s.val) :
    shapeCast S16x2048x1024 Y shapeCasts_S32768x1024_S16x2048x1024 (ix3 b s e) = Y (ix2 r e) :=
  shapeCast_apply Y _ (ix3 b s e) (ix2 r e) (by
    rw [Shape.rowMajor_val_two, Shape.rowMajor_val_three]
    show r.val * 1024 + e.val = (b.val * 2048 + s.val) * 1024 + e.val
    rw [hr])

/-! ## The result -/

/-- The output matrix reshaped back is `ffn` of the arguments. -/
theorem result_eq (c : Dev nD) :
    shapeCast S16x2048x1024 (rowsOut m c) shapeCasts_S32768x1024_S16x2048x1024
      = ffn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext i
  obtain ⟨b, s, e, rfl⟩ : ∃ (b : Fin 16) (s : Fin 2048) (e : Fin 1024), i = ix3 b s e := ⟨i 0, i 1, i 2, eq_ix3 i⟩
  have hb : b.val < 16 := b.isLt
  have hs : s.val < 2048 := s.isLt
  rw [untokens_apply (rowsOut m c) b s e ⟨b.val * 2048 + s.val, by omega⟩ rfl]
  show tokenOut _ _ _ _ _ _ = tokenOut _ _ _ _ _ _
  refine tokenOut_congr (fun w => ?_) (fun w => ?_) (fun f w => ?_) (fun f => ?_) (fun f => ?_) ?_
  · show V m c main_v0 (ix2 (⟨b.val * 2048 + s.val, by omega⟩ : Fin 32768) (feat w)) = _
    rw [tokens_eq]
    exact tokens_apply _ b s (feat w) _ rfl
  · show V m c main_v2 (ix2 (0 : Fin 1) w) = _
    rw [cosines_eq]
    exact shapeCast_a_1a_apply _ _ (0 : Fin 1) w
  · show V m c main_v5 (ix2 f w) = _
    rw [weights1_eq]
  · show V m c main_v3 (ix2 (0 : Fin 1) f) = _
    rw [bias1_eq]
    exact shapeCast_a_1a_apply _ _ (0 : Fin 1) f
  · show V m c main_v6 (ix2 e f) = _
    rw [weights2_eq]
  · show V m c main_v4 (ix2 (0 : Fin 1) e) = _
    rw [bias2_eq]
    exact shapeCast_a_1a_apply _ _ (0 : Fin 1) e

/-- What the host's last line leaves in the result buffer: the output matrix, reshaped back. -/
theorem tail_eq (c : Dev nD) :
    Pipeline.afterTail₀ cfgs (dats m) 0 (V0 m) [hostOps1] c main_v8
      = ffn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  unfold Pipeline.afterTail₀
  show StableHlo.after hostOps1 _ (Proc.devRef .tc main_v8) = _
  after_results
  rw [show Pipeline.withArrays spec0 c (V0 m c) (fun w => (dats m 0 c).arrAt w cfg0.N) (Proc.devRef .tc main_v7) = _ from
    Pipeline.withArrays_arr spec0 launch0.win.arr_inj c _ _ 6, final]
  exact result_eq m c

/-! ## The run -/

/-- Every weakly fair execution of the kernel program ends with the result buffer at `ffn` of the arguments and the
    arguments unchanged. -/
theorem run : θ_run defs (onTc (τ := τ) (main (F := Ideal))) ⟨m, fun _ => 0, ρ⟩ fun r => ∀ c : Dev nD,
      r.2.mem ((c.tc : Thread nD τ).loc main_v8) = ffn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v8 (Pipeline.mem_restRefs_of main_v8 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Result

end
-- ==== Proof.lean ====
/-
  The kernel computes, for every token of a [16, 2048, 1024] batch, a two-layer network on 8 cosine features:
  `out[b, s, e] = ∑_f max (∑_w cos x[b, s, w] * cos θ[w] * W1[f, w] + b1[f]) 0 * W2[e, f] + b2[e]`
  (`Cert.Ffn.ffn`, Proof/Spec.lean). The kernel program lays the tokens out as 32768 rows, works on 256 rows per grid
  step with the weights resident, multiplies on the matrix unit with bf16 operands, and reshapes back; the reference
  is the same formula as two einsums. On extended reals the narrowing to bf16 is the identity and both programs
  read the same entries in the same sums, so the two results are one function of the arguments:
  Proof/Result.lean (kernel side, over Payload.lean and Rows.lean) and Proof/Reference.lean (reference side).
  The precondition is never opened: no step needs finiteness. The idealization rewrote nothing, so `preserves` is
  `True`. The three frames are the generated frame runs and the reference's run with its result dropped.
-/
import proofs.«165914_j65481071402794_1_alg».proof.Defs
import proofs.«165914_j65481071402794_1_alg».proof.Proof.Gen.Kernel
import proofs.«165914_j65481071402794_1_alg».proof.Proof.Gen.Kernel.Skeleton
import proofs.«165914_j65481071402794_1_alg».proof.Proof.Gen.Kernel.Launch
import proofs.«165914_j65481071402794_1_alg».proof.Proof.Gen.Kernel.Points
import proofs.«165914_j65481071402794_1_alg».proof.Proof.Gen.Kernel.Frame
import proofs.«165914_j65481071402794_1_alg».proof.Proof.Gen.KernelIdeal
import proofs.«165914_j65481071402794_1_alg».proof.Proof.Gen.KernelIdeal.Skeleton
import proofs.«165914_j65481071402794_1_alg».proof.Proof.Gen.KernelIdeal.Launch
import proofs.«165914_j65481071402794_1_alg».proof.Proof.Gen.KernelIdeal.Points
import proofs.«165914_j65481071402794_1_alg».proof.Proof.Gen.KernelIdeal.Frame
import proofs.«165914_j65481071402794_1_alg».proof.Proof.Gen.ReferenceIdeal
import proofs.«165914_j65481071402794_1_alg».proof.Proof.Gen.ReferenceIdeal.Run
import proofs.«165914_j65481071402794_1_alg».proof.Proof.Gen.ReferenceIdeal.Read
import proofs.«165914_j65481071402794_1_alg».proof.Proof.Gen.Pre_finite_inputs
import proofs.«165914_j65481071402794_1_alg».proof.Proof.Spec
import proofs.«165914_j65481071402794_1_alg».proof.Proof.Reference
import proofs.«165914_j65481071402794_1_alg».proof.Proof.Result
import Idealize.ShloMosaic.Adequacy
import Idealize.ShloMosaic.Init

noncomputable section

namespace Cert.Proof

open Idealize.ShloMosaic Idealize.SL.Sem

/-- The word-level kernel program runs and keeps its arguments: its generated frame. -/
theorem frame_k : Cert.frame_Kernel := fun m ρ _ => Cert.Kernel.Gen.frame m ρ

/-- So does the kernel program read at the extended reals. -/
theorem frame_ki : Cert.frame_KernelIdeal := fun m ρ _ => Cert.KernelIdeal.Gen.frame m ρ

/-- The reference runs and keeps its arguments: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both programs, from memories that agree on the six arguments, end with the result at `ffn` of the arguments. -/
theorem algebraic : Cert.algebraic_KernelIdeal_ReferenceIdeal := by
  intro m ρ m' ρ' _ hagree
  refine ⟨fun c => Cert.Ffn.ffn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.RefSide.ref_eq, (hagree c).1, (hagree c).2.1, (hagree c).2.2.1,
    (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
